-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x8192 : Shape := ⟨3, ![8, 2048, 8192]⟩
abbrev S8x8192x2048 : Shape := ⟨3, ![8, 8192, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x8192x2048 : S_.BroadcastsInDim S8x8192x2048 (![] : Fin 0 → Fin S8x8192x2048.rank)
  reducesTo_S8x8192x2048_S_d0_1_2 : S8x8192x2048.ReducesTo [0, 1, 2] S_

variable [Facts]

def fn {F : FTy → Type} [FloatOps F] (main_arg0 : FVec F S8x2048x2048 .f32) (main_arg1 : FVec F S8x2048x8192 .f32) (main_arg2 : FVec F S8x8192x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x8192x2048 .f32 := Host.absf main_arg2
  let main_cst_2 : FVec F S_ .f32 := constant S_ .f32 0x7F800000#32
  let main_v10 : FVec F S8x8192x2048 .f32 := broadcastInDim S8x8192x2048 ![] bcast_S_S8x8192x2048 main_cst_2
  let main_v11 : IVec S8x8192x2048 1 := cmpf .olt main_v9 main_v10
  let main_c_3 : IVec S_ 1 := constantI S_ 1 1#1
  let main_v12 : IVec S_ 1 := (fun x v => Host.reduce IntOp.andi x v reducesTo_S8x8192x2048_S_d0_1_2 h_S_) main_v11 main_c_3
  let main_v13 : IVec S_ 1 := andi main_v8 main_v12
  main_v13
-- ==== Kernel.lean ====
abbrev S8x2048x2048 : Shape := ⟨3, ![8, 2048, 2048]⟩
abbrev S8x2048x8192 : Shape := ⟨3, ![8, 2048, 8192]⟩
abbrev S8x8192x2048 : Shape := ⟨3, ![8, 8192, 2048]⟩
abbrev S1x512x2048 : Shape := ⟨3, ![1, 512, 2048]⟩
abbrev S1x2048x1024 : Shape := ⟨3, ![1, 2048, 1024]⟩
abbrev S1x1024x2048 : Shape := ⟨3, ![1, 1024, 2048]⟩
abbrev S512x2048 : Shape := ⟨2, ![512, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S8x2048x8192, .f32⟩
  | .hbm, ⟨2, _⟩ => ⟨S8x8192x2048, .f32⟩
  | .hbm, ⟨3, _⟩ => ⟨S8x2048x2048, .bf16⟩
  | .hbm, ⟨4, _⟩ => ⟨S8x2048x8192, .bf16⟩
  | .hbm, ⟨5, _⟩ => ⟨S8x8192x2048, .bf16⟩
  | .hbm, ⟨6, _⟩ => ⟨S8x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x512x2048, .f32⟩
  | .local _ .vmem, ⟨7, _⟩ => ⟨S1x512x2048, .f32⟩
  | .local _ .vmem, ⟨8, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_15 : BitVec 32 := 0#32
  let v21 : BitVec 1 := Scalar.cmpi .ne v20 c0_i32_15
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S512x2048_S1x512x2048 : S512x2048.ShapeCasts S1x512x2048
  dot_S512x2048_S2048x1024_S512x1024_1_0_0_1_n_n_wf : DotDims.WF S512x2048 S2048x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x8192.size a
  hwx0_1 : ∀ i : grid0.Coords, EltTy.bits .bf16 = 32 ∨ (Rect.block (s := S8x2048x8192) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x8192x2048.size a
  hwx0_2 : ∀ i : grid0.Coords, EltTy.bits .bf16 = 32 ∨ (Rect.block (s := S8x8192x2048) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S8x2048x8192 : Shape := ⟨3, ![8, 2048, 8192]⟩
abbrev S8x8192x2048 : Shape := ⟨3, ![8, 8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x8192, .f32⟩
  | .hbm, ⟨2, _⟩ => ⟨S8x8192x2048, .f32⟩
  | .hbm, ⟨3, _⟩ => ⟨S8x2048x8192, .f32⟩
  | .hbm, ⟨4, _⟩ => ⟨S_, .f32⟩
  | .hbm, ⟨5, _⟩ => ⟨S8x2048x8192, .f32⟩
  | .hbm, ⟨6, _⟩ => ⟨S8x2048x8192, .f32⟩
  | .hbm, ⟨7, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S8x2048x8192 : S_.BroadcastsInDim S8x2048x8192 (![] : Fin 0 → Fin S8x2048x8192.rank)
  dot_S8x2048x2048_S8x2048x8192_S8x2048x8192_2_1_1_2_0_0_wf : DotDims.WF S8x2048x2048 S8x2048x8192 S8x2048x8192 [2] [1] [1] [2] [0] [0]
  dot_S8x2048x8192_S8x8192x2048_S8x2048x2048_2_1_1_2_0_0_wf : DotDims.WF S8x2048x8192 S8x8192x2048 S8x2048x2048 [2] [1] [1] [2] [0] [0]

variable [Facts₀]

def dot_S8x2048x2048_S8x2048x8192_S8x2048x8192_2_1_1_2_0_0 : DotDims S8x2048x2048 S8x2048x8192 S8x2048x8192 where
  lhsContracting := [2]
  rhsContracting := [1]
  lhsNonContracting := [1]
  rhsNonContracting := [2]
  lhsBatch := [0]
  rhsBatch := [0]
  wf := dot_S8x2048x2048_S8x2048x8192_S8x2048x8192_2_1_1_2_0_0_wf
def dot_S8x2048x8192_S8x8192x2048_S8x2048x2048_2_1_1_2_0_0 : DotDims S8x2048x8192 S8x8192x2048 S8x2048x2048 where
  lhsContracting := [2]
  rhsContracting := [1]
  lhsNonContracting := [1]
  rhsNonContracting := [2]
  lhsBatch := [0]
  rhsBatch := [0]
  wf := dot_S8x2048x8192_S8x8192x2048_S8x2048x2048_2_1_1_2_0_0_wf

class Facts : Prop extends Facts₀ where

variable [Facts]
-- ==== Proof.Spec.lean ====
/-
  The function both programs compute, over the extended reals.

  Eight experts, each a two-layer perceptron without biases applied to its own 2048 tokens of width 2048:
  a first layer of 8192 hidden units, the rectifier, and a second layer back to width 2048.  For expert `e`,
  token `c` and output feature `n`

      out (e, c, n) = ∑ h < 8192, max (∑ j < 2048, x (e, c, j) · w₁ (e, j, h)) 0 · w₂ (e, h, n).

  The zero the rectifier compares against is kept as the single-precision word both programs spell it with; it is
  evaluated only where a sum has to start from it.
-/
import Idealize.ShloMosaic.PureOps.Ideal
import Idealize.ShloMosaic.PureOps.Ideal.Laws
import Idealize.ShloMosaic.Lib.ValueIdx

noncomputable section

namespace Cert.Moe

open Idealize.ShloMosaic Idealize.ShloMosaic.ValueIdx
open scoped BigOperators

/-- Tokens: expert × token × feature. -/
abbrev SX : Shape := ⟨3, ![8, 2048, 2048]⟩
/-- First-layer weights: expert × feature × hidden unit. -/
abbrev SW1 : Shape := ⟨3, ![8, 2048, 8192]⟩
/-- Second-layer weights: expert × hidden unit × feature. -/
abbrev SW2 : Shape := ⟨3, ![8, 8192, 2048]⟩

/-- The single-precision zero word, read as an extended real. -/
abbrev zero32 : EReal := Ideal.ofBits .f32 0x00000000#32

/-- The zero word is the real number zero. -/
theorem zero32_eq : zero32 = 0 := Ideal.ofBits_zero_f32

/-- The rectified activation of hidden unit `h` of expert `e` at token `c`. -/
def hidden (x : FVec Ideal SX .f32) (w1 : FVec Ideal SW1 .f32) (e : Fin 8) (c : Fin 2048) (h : Fin 8192) : EReal :=
  max (∑ j : Fin 2048, x (ix3 e c j) * w1 (ix3 e j h)) zero32

/-- The experts' output, index by index. -/
def out (x : FVec Ideal SX .f32) (w1 : FVec Ideal SW1 .f32) (w2 : FVec Ideal SW2 .f32) : FVec Ideal SX .f32 :=
  fun i => ∑ h : Fin 8192, hidden x w1 (i 0) (i 1) h * w2 (ix3 (i 0) h (i 2))

/-- The output at explicit coordinates. -/
theorem out_ix3 (x : FVec Ideal SX .f32) (w1 : FVec Ideal SW1 .f32) (w2 : FVec Ideal SW2 .f32)
    (e : Fin 8) (c : Fin 2048) (n : Fin 2048) :
    out x w1 w2 (ix3 e c n) = ∑ h : Fin 8192, hidden x w1 e c h * w2 (ix3 e h n) := rfl

end Cert.Moe

end
-- ==== Proof.RefIsOut.lean ====
/-
  The reference computes `Cert.Moe.out`.

  Its program is a batched product contracting the feature axis, a maximum against the broadcast zero, and a batched
  product contracting the hidden axis.  Read at an index, each product is the plain sum over its contracted axis with
  the expert as the common batch coordinate, which is the specification's double sum term by term.
-/
import proofs.«106295_j80882824118673_1_alg».proof.Proof.Gen.ReferenceIdeal.Read
import proofs.«106295_j80882824118673_1_alg».proof.Proof.Spec

noncomputable section

namespace Cert.Moe.Ref

open Cert.ReferenceIdeal Cert.ReferenceIdeal.Read Idealize.ShloMosaic Idealize.ShloMosaic.ValueIdx
open scoped BigOperators

/-- The reference's result, as a function of its three arguments, is the experts' output. -/
theorem result_eq_out (x : FVec Ideal SX .f32) (w1 : FVec Ideal SW1 .f32) (w2 : FVec Ideal SW2 .f32) :
    val_main_v2 (F := Ideal) x w1 w2 = out x w1 w2 := by
  funext i
  rw [val_main_v2_apply]
  unfold out
  refine Finset.sum_congr rfl fun h _ => ?_
  rw [val_main_v1_apply, val_main_v0_apply, val_main_call0_v0_apply, val_main_call0_cst_apply]
  have e1 : ∀ k : Fin 2048, lidx_main_v0 (lidx_main_v2 i h) k = ix3 (i 0) (i 1) k := fun k =>
    funext fun a => Fin.ext (by match a with | ⟨0, _⟩ => rfl | ⟨1, _⟩ => rfl | ⟨2, _⟩ => rfl)
  have e2 : ∀ k : Fin 2048, ridx_main_v0 (lidx_main_v2 i h) k = ix3 (i 0) k h := fun k =>
    funext fun a => Fin.ext (by match a with | ⟨0, _⟩ => rfl | ⟨1, _⟩ => rfl | ⟨2, _⟩ => rfl)
  have e3 : ridx_main_v2 i h = ix3 (i 0) h (i 2) :=
    funext fun a => Fin.ext (by match a with | ⟨0, _⟩ => rfl | ⟨1, _⟩ => rfl | ⟨2, _⟩ => rfl)
  simp only [e1, e2, e3]
  rfl

end Cert.Moe.Ref

end
-- ==== Proof.Pieces.lean ====
/-
  What one run of the kernel body leaves behind, case by case.

  The body keeps a running block of 512 × 2048 partial outputs in a scratch buffer that survives from one grid point to
  the next.  At the first point of a run it stores the zero block and then the zero block plus the point's addend; at
  every later point it stores what it found plus the point's addend; at the last point of a run it also copies the
  running block, with a unit axis in front, into the output's staging buffer.  Each store goes through the whole
  buffer, so what a buffer holds afterwards is the payload of the last store into it, and a load after a store of the
  same run reads that store's payload.
-/
import proofs.«106295_j80882824118673_1_alg».proof.Proof.Gen.KernelIdeal.Frame
import Idealize.ShloMosaic.Lib.Pipeline.Value
import Idealize.ShloMosaic.Lib.Tactic

noncomputable section

namespace Cert.KernelIdeal.Acc

open Cert.KernelIdeal Cert.KernelIdeal.Gen Idealize.ShloMosaic Idealize.ShloMosaic.TcCoe Idealize.SL.Sem

variable {F : FTy → Type} [FloatOps F]

/-- The offsets of a whole-buffer access of rank 2 are all zero. -/
theorem zeros2 : (![0, 0] : Fin 2 → Nat) = fun _ => 0 := funext fun a => by fin_cases a <;> rfl
/-- The offsets of a whole-buffer access of rank 3 are all zero. -/
theorem zeros3 : (![0, 0, 0] : Fin 3 → Nat) = fun _ => 0 := funext fun a => by fin_cases a <;> rfl

/-- First point of a run: the running block ends at the zero block plus the point's addend. -/
theorem scratch_A (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x512x2048 .f32) (harg6 : arg6.IsWhole) (arg7 : Memref sig .tc .vmem S512x2048 .f32) (harg7 : arg7.IsWhole) (hc0 : cond0_0 i) (hc1 : ¬cond0_1 i)
    (x0 : Vec F S1x512x2048 .bf16) (x1 : Vec F S1x2048x1024 .bf16) (x2 : Vec F S1x1024x2048 .bf16) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x2048) zeros2, View.readCov_unit_zero (S := S512x2048) _ zeros2]
  simp only [View.readAt_eq_ld, harg3.read_unread, harg4.read_unread, harg5.read_unread,
    View.ld_unit_zero (S := S1x512x2048) zeros3, View.ld_unit_zero (S := S1x2048x1024) zeros3,
    View.ld_unit_zero (S := S1x1024x2048) zeros3]

/-- A middle point of a run: the running block ends at what it held plus the point's addend. -/
theorem scratch_B (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : ¬cond0_1 i)
    (x0 : Vec F S1x512x2048 .bf16) (x1 : Vec F S1x2048x1024 .bf16) (x2 : Vec F S1x1024x2048 .bf16) (xs0 : Vec F S512x2048 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S512x2048) zeros2]
  simp only [View.readAt_eq_ld, harg3.read_unread, harg4.read_unread, harg5.read_unread, harg7.read_unread,
    View.ld_unit_zero (S := S1x512x2048) zeros3, View.ld_unit_zero (S := S1x2048x1024) zeros3,
    View.ld_unit_zero (S := S1x1024x2048) zeros3, View.ld_unit_zero (S := S512x2048) zeros2]

/-- Last point of a run: the running block, as at a middle point. -/
theorem scratch_C (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .bf16) (x1 : Vec F S1x2048x1024 .bf16) (x2 : Vec F S1x1024x2048 .bf16) (xs0 : Vec F S512x2048 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S512x2048) zeros2]
  simp only [View.readAt_eq_ld, harg3.read_unread, harg4.read_unread, harg5.read_unread, harg7.read_unread,
    View.ld_unit_zero (S := S1x512x2048) zeros3, View.ld_unit_zero (S := S1x2048x1024) zeros3,
    View.ld_unit_zero (S := S1x1024x2048) zeros3, View.ld_unit_zero (S := S512x2048) zeros2]

/-- Last point of a run: the output's staging buffer ends at the running block just stored, a unit axis in front. -/
theorem out_C (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .bf16) (x1 : Vec F S1x2048x1024 .bf16) (x2 : Vec F S1x1024x2048 .bf16) (xs0 : Vec F S512x2048 .f32) :
    out0_C_3 c i arg3 harg3 arg4 harg4 arg5 harg5 arg6 harg6 arg7 harg7 hc0 hc1 x0 x1 x2 xs0 = k0_pay3 (k0_pay2 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1x512x2048) zeros3, View.readCov_unit_zero (S := S512x2048) _ zeros2]
  simp only [View.readAt_eq_ld, harg3.read_unread, harg4.read_unread, harg5.read_unread, harg7.read_unread,
    View.ld_unit_zero (S := S1x512x2048) zeros3, View.ld_unit_zero (S := S1x2048x1024) zeros3,
    View.ld_unit_zero (S := S1x1024x2048) zeros3, View.ld_unit_zero (S := S512x2048) zeros2]

end Cert.KernelIdeal.Acc

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.Payload.lean ====
/-
  The body's arithmetic, read at one token and one feature, over the extended reals.

  The addend of a grid point is a product of two matrix products with the rectifier between them: the 512 × 2048 block of
  tokens times the 2048 × 1024 block of first-layer weights, the maximum with zero, and that 512 × 1024 block of
  activations times the 1024 × 2048 block of second-layer weights.  A matrix product into the zero accumulator, read at
  an entry, is the plain sum over the contracted axis; the changes of float format in between are the identity; the
  blocks arrive with a unit axis in front, which a cast drops.
-/
import proofs.«106295_j80882824118673_1_alg».proof.Proof.Gen.KernelIdeal.Skeleton
import proofs.«106295_j80882824118673_1_alg».proof.Proof.LibDotFormats
import proofs.«106295_j80882824118673_1_alg».proof.Proof.Spec
import Idealize.ShloMosaic.Lib.ValueIdx
import Idealize.ShloMosaic.Lib.ValueLayout
import Idealize.ShloMosaic.Lib.Pipeline.Value

noncomputable section

namespace Cert.KernelIdeal.Acc

open Cert.KernelIdeal Cert.KernelIdeal.Gen Idealize.ShloMosaic Idealize.ShloMosaic.ValueIdx
open scoped BigOperators

/-- The block a run starts from reads the zero word everywhere. -/
theorem pay1_apply (i : S512x2048.Idx) : k0_pay1 (F := Ideal) i = Cert.Moe.zero32 := by
  unfold k0_pay1
  rw [shapeCast_self]
  rfl

/-- What a point stores into the running block, at token `p` and feature `q`: what the block held there plus the sum,
    over the point's 1024 hidden units, of the rectified first-layer product times the second-layer weight. -/
theorem pay2_apply (v3 : Vec Ideal S1x512x2048 .bf16) (v5 : Vec Ideal S1x2048x1024 .bf16)
    (v11 : Vec Ideal S1x1024x2048 .bf16) (v13 : Vec Ideal S512x2048 .f32) (p : Fin 512) (q : Fin 2048) :
    k0_pay2 (F := Ideal) v3 v5 v11 v13 (ix2 p q)
      = v13 (ix2 p q) + ∑ k : Fin 1024,
          max (∑ j : Fin 2048, v3 (ix3 (0 : Fin 1) p j) * v5 (ix3 (0 : Fin 1) j k)) Cert.Moe.zero32
            * v11 (ix3 (0 : Fin 1) k q) := by
  unfold k0_pay2
  rw [shapeCast_self, addf_apply]
  refine congrArg (v13 (ix2 p q) + ·) ?_
  refine (Cert.LibDotFormats.matmul_cols_zero_apply (A := 512) (K := 1024) (B := 2048)
    dot_S512x1024_S1024x2048_S512x2048_1_0_0_1_n_n rfl rfl rfl rfl rfl rfl none _ _ p q).trans ?_
  refine Finset.sum_congr rfl fun k _ => ?_
  rw [truncf_apply, maximumf_apply, broadcast_apply, shapeCast_1ab_ab_apply]
  refine congrArg (fun s : EReal => max s Cert.Moe.zero32 * v11 (ix3 (0 : Fin 1) k q)) ?_
  refine (Cert.LibDotFormats.matmul_cols_zero_apply (A := 512) (K := 2048) (B := 1024)
    dot_S512x2048_S2048x1024_S512x1024_1_0_0_1_n_n rfl rfl rfl rfl rfl rfl none _ _ p k).trans ?_
  refine Finset.sum_congr rfl fun j _ => ?_
  rw [shapeCast_1ab_ab_apply, shapeCast_1ab_ab_apply]

/-- The copy into the output's staging buffer puts a unit axis in front. -/
theorem pay3_apply (v22 : Vec Ideal S512x2048 .f32) (u : Fin 1) (p : Fin 512) (q : Fin 2048) :
    k0_pay3 (F := Ideal) v22 (ix3 u p q) = v22 (ix2 p q) := by
  unfold k0_pay3
  rw [shapeCast_ab_1ab_apply]

end Cert.KernelIdeal.Acc

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.GridLaw.lean ====
/-
  How the grid cuts the second layer's sum.

  The kernel walks a grid of 8 × 4 × 8 points, the last coordinate fastest: point `n` works for expert `n / 32`, on the
  block of 512 tokens number `(n / 8) mod 4`, with the block of 1024 hidden units number `n mod 8`.  At a point it adds,
  to a running block of 512 × 2048 partial outputs, the part of the second layer's sum that runs over its 1024 hidden
  units.  The eight points of one run `b, b + 1, …, b + 7` (`b` a multiple of eight) share expert and token block and
  go through the eight blocks of hidden units in order, so their addends sum to the whole sum over the 8192 hidden
  units: a sum over eight blocks of 1024 consecutive indices is the sum over all of them, in any commutative monoid,
  and the extended reals under addition are one.
-/
import proofs.«106295_j80882824118673_1_alg».proof.Proof.Spec
import proofs.«106295_j80882824118673_1_alg».proof.Proof.LibBlockSum

noncomputable section

namespace Cert.Moe

open Idealize.ShloMosaic Idealize.ShloMosaic.ValueIdx
open scoped BigOperators

/-- The running block of partial outputs: 512 tokens × 2048 features. -/
abbrev SAcc : Shape := ⟨2, ![512, 2048]⟩

/-- The expert grid point `n` works for. -/
def expertOf (n : ℕ) : Fin 8 := ⟨n / 32 % 8, Nat.mod_lt _ (by decide)⟩
/-- The block of 512 tokens grid point `n` works on. -/
def rowBlockOf (n : ℕ) : Fin 4 := ⟨n / 8 % 4, Nat.mod_lt _ (by decide)⟩
/-- The block of 1024 hidden units grid point `n` works with. -/
def hidBlockOf (n : ℕ) : Fin 8 := ⟨n % 8, Nat.mod_lt _ (by decide)⟩

/-- Token `p` of token block `b`. -/
def rowAt (b : Fin 4) (p : Fin 512) : Fin 2048 := ⟨512 * b.val + p.val, by omega⟩
/-- Hidden unit `k` of hidden block `b`. -/
def unitAt (b : Fin 8) (k : Fin 1024) : Fin 8192 := ⟨1024 * b.val + k.val, by omega⟩

/-- What grid point `n` adds to the running block at token `p` and feature `q`: the second layer's sum over the
    point's own 1024 hidden units. -/
def addend (x : FVec Ideal SX .f32) (w1 : FVec Ideal SW1 .f32) (w2 : FVec Ideal SW2 .f32) (n : ℕ)
    (p : Fin 512) (q : Fin 2048) : EReal :=
  ∑ k : Fin 1024, hidden x w1 (expertOf n) (rowAt (rowBlockOf n) p) (unitAt (hidBlockOf n) k)
    * w2 (ix3 (expertOf n) (unitAt (hidBlockOf n) k) q)

/-- Eight blocks of 1024 consecutive indices make up the 8192 indices. -/
theorem sum_8x1024 {M : Type*} [AddCommMonoid M] (f : Fin 8192 → M) :
    ∑ b : Fin 8, ∑ r : Fin 1024, f ⟨1024 * b.val + r.val, by omega⟩ = ∑ n : Fin 8192, f n :=
  Cert.BlockSum.sum_blocks 8 1024 f

/-- The addends of the eight points of a run sum to the experts' output on the run's block of tokens. -/
theorem sum_addend (x : FVec Ideal SX .f32) (w1 : FVec Ideal SW1 .f32) (w2 : FVec Ideal SW2 .f32)
    (b : ℕ) (hb : b % 8 = 0) (p : Fin 512) (q : Fin 2048) :
    ∑ s ∈ Finset.range 8, addend x w1 w2 (b + s) p q
      = out x w1 w2 (ix3 (expertOf b) (rowAt (rowBlockOf b) p) q) := by
  show _ = ∑ h : Fin 8192, hidden x w1 (expertOf b) (rowAt (rowBlockOf b) p) h * w2 (ix3 (expertOf b) h q)
  rw [Finset.sum_range, ← sum_8x1024]
  refine Finset.sum_congr rfl fun s _ => ?_
  have he : expertOf (b + s.val) = expertOf b :=
    Fin.ext (by show (b + s.val) / 32 % 8 = b / 32 % 8; omega)
  have hr : rowBlockOf (b + s.val) = rowBlockOf b :=
    Fin.ext (by show (b + s.val) / 8 % 4 = b / 8 % 4; omega)
  have hh : hidBlockOf (b + s.val) = s :=
    Fin.ext (by show (b + s.val) % 8 = s.val; omega)
  unfold addend
  rw [he, hr, hh]
  rfl

end Cert.Moe

end
-- ==== Proof.Blocks.lean ====
/-
  What the three input windows hold at a grid point.

  Before the kernel runs, the program narrows the three arguments to half precision; over the extended reals that
  changes nothing.  At grid point `t` the pipeline hands the body one block of each narrowed array: of the tokens, the
  512 tokens of the point's token block of the point's expert, all 2048 features; of the first-layer weights, all 2048
  features against the 1024 hidden units of the point's hidden block; of the second-layer weights, those 1024 hidden
  units against all 2048 features.  A block's entry `y` sits in its array at block index × block size + `y`, axis by
  axis, and the block indices are decided over the grid's 256 points once.
-/
import proofs.«106295_j80882824118673_1_alg».proof.Proof.Gen.KernelIdeal.Frame
import proofs.«106295_j80882824118673_1_alg».proof.Proof.GridLaw
import Idealize.ShloMosaic.Lib.Pipeline.Value
import Idealize.ShloMosaic.Lib.StableHlo.Run
import Idealize.ShloMosaic.Lib.ValueIdx

noncomputable section

namespace Cert.KernelIdeal.Acc

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The tokens as launched. -/
abbrev xarr (c : Dev nD) : FVec Ideal S8x2048x2048 .f32 := m ((c : Thread nD τ).loc main_arg0)
/-- The first-layer weights as launched. -/
abbrev w1arr (c : Dev nD) : FVec Ideal S8x2048x8192 .f32 := m ((c : Thread nD τ).loc main_arg1)
/-- The second-layer weights as launched. -/
abbrev w2arr (c : Dev nD) : FVec Ideal S8x8192x2048 .f32 := m ((c : Thread nD τ).loc main_arg2)

/-- The block of tokens the body is handed at point `t`. -/
abbrev xblk (c : Dev nD) (t : Fin cfg0.N) : Vec Ideal S1x512x2048 .bf16 := iblk m c 0 t
/-- The block of first-layer weights the body is handed at point `t`. -/
abbrev w1blk (c : Dev nD) (t : Fin cfg0.N) : Vec Ideal S1x2048x1024 .bf16 := iblk m c 1 t
/-- The block of second-layer weights the body is handed at point `t`. -/
abbrev w2blk (c : Dev nD) (t : Fin cfg0.N) : Vec Ideal S1x1024x2048 .bf16 := iblk m c 2 t

/-- The narrowed tokens the kernel's first window stages are the tokens. -/
theorem narrowed_x (c : Dev nD) :
    (V m c main_v0 : S8x2048x2048.Idx → EReal) = truncf .bf16 (xarr m c) bitsLt_bf16_f32 := by
  dsimp only [Gen.V, Gen.hostOps0]; after_results
/-- The narrowed first-layer weights the second window stages are the first-layer weights. -/
theorem narrowed_w1 (c : Dev nD) :
    (V m c main_v1 : S8x2048x8192.Idx → EReal) = truncf .bf16 (w1arr m c) bitsLt_bf16_f32 := by
  dsimp only [Gen.V, Gen.hostOps0]; after_results
/-- The narrowed second-layer weights the third window stages are the second-layer weights. -/
theorem narrowed_w2 (c : Dev nD) :
    (V m c main_v2 : S8x8192x2048.Idx → EReal) = truncf .bf16 (w2arr m c) bitsLt_bf16_f32 := by
  dsimp only [Gen.V, Gen.hostOps0]; after_results

/-- The token window's block index at point `t`: (expert, token block, 0). -/
theorem tokens_index : ∀ t : Fin cfg0.N,
    win0_0.index t 0 = t.val / 32 % 8 ∧ win0_0.index t 1 = t.val / 8 % 4 ∧ win0_0.index t 2 = 0 :=
  (by decide +kernel : ∀ t : Fin grid0.N,
    win0_0.index t 0 = t.val / 32 % 8 ∧ win0_0.index t 1 = t.val / 8 % 4 ∧ win0_0.index t 2 = 0)
/-- The first-layer window's block index at point `t`: (expert, 0, hidden block). -/
theorem first_index : ∀ t : Fin cfg0.N,
    win0_1.index t 0 = t.val / 32 % 8 ∧ win0_1.index t 1 = 0 ∧ win0_1.index t 2 = t.val % 8 :=
  (by decide +kernel : ∀ t : Fin grid0.N,
    win0_1.index t 0 = t.val / 32 % 8 ∧ win0_1.index t 1 = 0 ∧ win0_1.index t 2 = t.val % 8)
/-- The second-layer window's block index at point `t`: (expert, hidden block, 0). -/
theorem second_index : ∀ t : Fin cfg0.N,
    win0_2.index t 0 = t.val / 32 % 8 ∧ win0_2.index t 1 = t.val % 8 ∧ win0_2.index t 2 = 0 :=
  (by decide +kernel : ∀ t : Fin grid0.N,
    win0_2.index t 0 = t.val / 32 % 8 ∧ win0_2.index t 1 = t.val % 8 ∧ win0_2.index t 2 = 0)

/-- Token `p`, feature `j` of the block of tokens at point `t`. -/
theorem xblk_apply (c : Dev nD) (t : Fin cfg0.N) (p : Fin 512) (j : Fin 2048) :
    xblk m c t (ix3 (0 : Fin 1) p j)
      = xarr m c (ix3 (Cert.Moe.expertOf t.val) (Cert.Moe.rowAt (Cert.Moe.rowBlockOf t.val) p) j) := by
  have hi := tokens_index t
  unfold xblk iblk
  show V m c main_v0 _ = _
  rw [narrowed_x, truncf_apply]
  refine congrArg (xarr m c) (funext fun a => Fin.ext ?_)
  match a with
  | ⟨0, _⟩ =>
    show win0_0.index t 0 * 1 + 1 * 0 = t.val / 32 % 8
    rw [hi.1]; omega
  | ⟨1, _⟩ =>
    show win0_0.index t 1 * 512 + 1 * p.val = 512 * (t.val / 8 % 4) + p.val
    rw [hi.2.1]; omega
  | ⟨2, _⟩ =>
    show win0_0.index t 2 * 2048 + 1 * j.val = j.val
    rw [hi.2.2]; omega

/-- Feature `j`, hidden unit `k` of the block of first-layer weights at point `t`. -/
theorem w1blk_apply (c : Dev nD) (t : Fin cfg0.N) (j : Fin 2048) (k : Fin 1024) :
    w1blk m c t (ix3 (0 : Fin 1) j k)
      = w1arr m c (ix3 (Cert.Moe.expertOf t.val) j (Cert.Moe.unitAt (Cert.Moe.hidBlockOf t.val) k)) := by
  have hi := first_index t
  unfold w1blk iblk
  show V m c main_v1 _ = _
  rw [narrowed_w1, truncf_apply]
  refine congrArg (w1arr m c) (funext fun a => Fin.ext ?_)
  match a with
  | ⟨0, _⟩ =>
    show win0_1.index t 0 * 1 + 1 * 0 = t.val / 32 % 8
    rw [hi.1]; omega
  | ⟨1, _⟩ =>
    show win0_1.index t 1 * 2048 + 1 * j.val = j.val
    rw [hi.2.1]; omega
  | ⟨2, _⟩ =>
    show win0_1.index t 2 * 1024 + 1 * k.val = 1024 * (t.val % 8) + k.val
    rw [hi.2.2]; omega

/-- Hidden unit `k`, feature `q` of the block of second-layer weights at point `t`. -/
theorem w2blk_apply (c : Dev nD) (t : Fin cfg0.N) (k : Fin 1024) (q : Fin 2048) :
    w2blk m c t (ix3 (0 : Fin 1) k q)
      = w2arr m c (ix3 (Cert.Moe.expertOf t.val) (Cert.Moe.unitAt (Cert.Moe.hidBlockOf t.val) k) q) := by
  have hi := second_index t
  unfold w2blk iblk
  show V m c main_v2 _ = _
  rw [narrowed_w2, truncf_apply]
  refine congrArg (w2arr m c) (funext fun a => Fin.ext ?_)
  match a with
  | ⟨0, _⟩ =>
    show win0_2.index t 0 * 1 + 1 * 0 = t.val / 32 % 8
    rw [hi.1]; omega
  | ⟨1, _⟩ =>
    show win0_2.index t 1 * 1024 + 1 * k.val = 1024 * (t.val % 8) + k.val
    rw [hi.2.1]; omega
  | ⟨2, _⟩ =>
    show win0_2.index t 2 * 2048 + 1 * q.val = q.val
    rw [hi.2.2]; omega

end Cert.KernelIdeal.Acc

end
-- ==== Proof.Fold.lean ====
/-
  The running block after each grid point, and what the last point of a run writes back.

  At every point the body stores, into the running block, what it found there plus the point's addend (the first point
  of a run finds the zero block it has just stored).  So after the point at offset `r` of a run the running block holds
  zero plus the addends of the run's points up to that one, and after the run's last point, by the law of the eight
  blocks of hidden units, the experts' output on the run's block of tokens.  That last point copies the running block
  into the output's staging buffer, which the pipeline then writes back.
-/
import proofs.«106295_j80882824118673_1_alg».proof.Proof.Gen.KernelIdeal.Value
import proofs.«106295_j80882824118673_1_alg».proof.Proof.Pieces
import proofs.«106295_j80882824118673_1_alg».proof.Proof.Payload
import proofs.«106295_j80882824118673_1_alg».proof.Proof.Blocks
import proofs.«106295_j80882824118673_1_alg».proof.Proof.GridLaw

noncomputable section

namespace Cert.KernelIdeal.Acc

open Cert.KernelIdeal Cert.KernelIdeal.Gen Cert.KernelIdeal.Value Idealize.ShloMosaic Idealize.ShloMosaic.TcCoe Idealize.SL.Sem
open Idealize.ShloMosaic.ValueIdx
open scoped BigOperators

variable (m : (ℓ : Loc nD τ sig) → Buf (Elt Ideal) ℓ)

/-- The addend of grid point `n`, of the arguments as launched. -/
abbrev addendAt (c : Dev nD) (n : ℕ) (p : Fin 512) (q : Fin 2048) : EReal :=
  Cert.Moe.addend (xarr m c) (w1arr m c) (w2arr m c) n p q

/-- What point `t` stores into the running block that held `acc`: `acc` plus the point's addend. -/
theorem stored_apply (c : Dev nD) (t : Fin cfg0.N) (acc : Vec Ideal S512x2048 .f32) (p : Fin 512) (q : Fin 2048) :
    k0_pay2 (F := Ideal) (xblk m c t) (w1blk m c t) (w2blk m c t) acc (ix2 p q)
      = acc (ix2 p q) + addendAt m c t.val p q := by
  rw [pay2_apply]
  refine congrArg (acc (ix2 p q) + ·) ?_
  unfold addendAt Cert.Moe.addend Cert.Moe.hidden
  refine Finset.sum_congr rfl fun k _ => ?_
  rw [w2blk_apply]
  refine congrArg (fun s : EReal => max s Cert.Moe.zero32 * w2arr m c _) ?_
  refine Finset.sum_congr rfl fun j _ => ?_
  rw [xblk_apply, w1blk_apply]

/-- The first point of a run leaves zero plus its addend, whatever the running block held. -/
theorem scAt_reset (c : Dev nD) (n : ℕ) (h : n < cfg0.N) (h0 : n % 8 = 0) (acc : Vec Ideal S512x2048 .f32)
    (p : Fin 512) (q : Fin 2048) :
    scAt0_0 m c n h acc (ix2 p q) = Cert.Moe.zero32 + addendAt m c n p q := by
  have h1 : ¬n % 8 = 7 := by omega
  unfold scAt0_0
  rw [dif_pos h0, dif_neg h1, scratch_A]
  refine (stored_apply m c ⟨n, h⟩ _ p q).trans ?_
  rw [pay1_apply]

/-- Every other point leaves what the running block held plus its addend. -/
theorem scAt_step (c : Dev nD) (n : ℕ) (h : n < cfg0.N) (h0 : ¬n % 8 = 0) (acc : Vec Ideal S512x2048 .f32)
    (p : Fin 512) (q : Fin 2048) :
    scAt0_0 m c n h acc (ix2 p q) = acc (ix2 p q) + addendAt m c n p q := by
  unfold scAt0_0
  rw [dif_neg h0]
  by_cases h1 : n % 8 = 7
  · rw [dif_pos h1, scratch_C]
    exact stored_apply m c ⟨n, h⟩ acc p q
  · rw [dif_neg h1, scratch_B]
    exact stored_apply m c ⟨n, h⟩ acc p q

/-- The running block after point `t`: zero plus the addends of the points of `t`'s run up to `t`. -/
theorem scratch_after (c : Dev nD) (t : Fin cfg0.N) (p : Fin 512) (q : Fin 2048) :
    (outsAt0 m c t.val t.isLt).2 (ix2 p q)
      = Cert.Moe.zero32 + ∑ s ∈ Finset.range (t.val % 8 + 1), addendAt m c (8 * (t.val / 8) + s) p q := by
  rw [soutsAt0_0_eq]
  exact Pipeline.accAt_add_apply
    (fun n h => scAt0_0 m c n h (VS0_0.read (Elt Ideal) VS0_0.junk)) (scAt0_0 m c)
    (fun _ => Cert.Moe.zero32) (fun n i => addendAt m c n (i 0) (i 1)) (8 * (t.val / 8)) 7
    (fun h i => by
      obtain ⟨p', q', rfl⟩ : ∃ (p' : Fin 512) (q' : Fin 2048), i = ix2 p' q' := ⟨i 0, i 1, eq_ix2 i⟩
      exact scAt_reset m c _ h (by omega) _ p' q')
    (fun n h acc i hlo hhi => by
      obtain ⟨p', q', rfl⟩ : ∃ (p' : Fin 512) (q' : Fin 2048), i = ix2 p' q' := ⟨i 0, i 1, eq_ix2 i⟩
      exact scAt_step m c n h (by omega) acc p' q')
    (t.val % 8) (by omega) _ (ix2 p q)

/-- At the last point of a run the output's staging buffer is the running block just stored, a unit axis in front. -/
theorem staged_is_running (c : Dev nD) (t : Fin cfg0.N) (h0 : ¬t.val % 8 = 0) (h7 : t.val % 8 = 7) :
    (outsAt0 m c t.val t.isLt).1 = k0_pay3 (F := Ideal) ((outsAt0 m c t.val t.isLt).2) := by
  rw [outsAt0_C m c t h0 h7]
  dsimp only
  rw [out_C, scratch_C]

/-- What the last point of a run leaves for the write-back: the experts' output on the run's block of tokens. -/
theorem staged_apply (c : Dev nD) (t : Fin cfg0.N) (h7 : t.val % 8 = 7) (u : Fin 1) (p : Fin 512) (q : Fin 2048) :
    (outsAt0 m c t.val t.isLt).1 (ix3 u p q)
      = Cert.Moe.out (xarr m c) (w1arr m c) (w2arr m c)
          (ix3 (Cert.Moe.expertOf t.val) (Cert.Moe.rowAt (Cert.Moe.rowBlockOf t.val) p) q) := by
  have h0 : ¬t.val % 8 = 0 := by omega
  have e8 : t.val % 8 + 1 = 8 := by omega
  have he : Cert.Moe.expertOf (8 * (t.val / 8)) = Cert.Moe.expertOf t.val :=
    Fin.ext (by show 8 * (t.val / 8) / 32 % 8 = t.val / 32 % 8; omega)
  have hr : Cert.Moe.rowBlockOf (8 * (t.val / 8)) = Cert.Moe.rowBlockOf t.val :=
    Fin.ext (by show 8 * (t.val / 8) / 8 % 4 = t.val / 8 % 4; omega)
  rw [staged_is_running m c t h0 h7, pay3_apply, scratch_after m c t p q, e8, Cert.Moe.zero32_eq, zero_add]
  unfold addendAt
  rw [Cert.Moe.sum_addend _ _ _ _ (by omega), he, hr]

end Cert.KernelIdeal.Acc

end
-- ==== Proof.KernelValue.lean ====
/-
  The kernel's result array.

  The output window's block index never moves inside a run of eight points, and the pipeline writes the staging buffer
  back once per run, after the run's last point: the block of 512 tokens × 2048 features of the run's expert and token
  block.  By then the buffer holds the experts' output on exactly those tokens.  The 32 runs' blocks tile the
  8 × 2048 × 2048 array (token `r` of expert `e` lies in the block written after point `32 e + 8 (r / 512) + 7`), so
  the array ends holding the experts' output everywhere.
-/
import proofs.«106295_j80882824118673_1_alg».proof.Proof.Fold

noncomputable section

namespace Cert.KernelIdeal.Acc

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The experts' output of the arguments as launched, as contents of the result array. -/
abbrev result (c : Dev nD) : Buf (Elt Ideal) ((c : Thread nD τ).loc main_v3) :=
  Cert.Moe.out (xarr m c) (w1arr m c) (w2arr m c)

/-- The output window's block index at point `t`: (expert, token block, 0). -/
theorem output_index : ∀ t : Fin cfg0.N,
    win0_3.index t 0 = t.val / 32 % 8 ∧ win0_3.index t 1 = t.val / 8 % 4 ∧ win0_3.index t 2 = 0 :=
  (by decide +kernel : ∀ t : Fin grid0.N,
    win0_3.index t 0 = t.val / 32 % 8 ∧ win0_3.index t 1 = t.val / 8 % 4 ∧ win0_3.index t 2 = 0)

/-- What a write-back writes is its block of the experts' output. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hi := output_index t
  rw [flushed3]
  funext j
  show (outsAt0 m c t.val t.isLt).1 j = result m c (((cfg0.win 3).blk t).view.emb j)
  obtain ⟨u, p, q, rfl⟩ : ∃ (u : Fin 1) (p : Fin 512) (q : Fin 2048), j = ix3 u p q := ⟨j 0, j 1, j 2, eq_ix3 j⟩
  rw [staged_apply m c t h7 u p q]
  refine congrArg (result m c) (funext fun a => Fin.ext ?_)
  match a with
  | ⟨0, _⟩ =>
    show t.val / 32 % 8 = win0_3.index t 0 * 1 + 1 * u.val
    rw [hi.1]; omega
  | ⟨1, _⟩ =>
    show 512 * (t.val / 8 % 4) + p.val = win0_3.index t 1 * 512 + 1 * p.val
    rw [hi.2.1]; omega
  | ⟨2, _⟩ =>
    show q.val = win0_3.index t 2 * 2048 + 1 * q.val
    rw [hi.2.2]; omega

/-- An index of the array is in point `t`'s block iff each coordinate is in the block's range on its axis. -/
theorem mem_block (t : Fin cfg0.N) (i : S8x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v3).slice (win0_3.rect t)).set ↔ _
  rw [View.set_slice_whole, Rect.mem_set_unit]
  exact Iff.rfl

/-- Every index of the result array lies in the block some write-back writes. -/
theorem covered (i : S8x2048x2048.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 2048 := (i 2).isLt
  have hN : cfg0.N = 256 := N_0
  let t : Fin cfg0.N := ⟨(i 0).val * 32 + (i 1).val / 512 * 8 + 7, by rw [hN]; omega⟩
  have ht : t.val = (i 0).val * 32 + (i 1).val / 512 * 8 + 7 := rfl
  have hi := output_index t
  refine ⟨t, (flush0_3 t).mpr (by rw [ht]; omega), ?_⟩
  rw [mem_block]
  intro a
  match a with
  | ⟨0, _⟩ =>
    show win0_3.index t 0 * 1 ≤ (i 0).val ∧ (i 0).val < win0_3.index t 0 * 1 + 1
    rw [hi.1, ht]; omega
  | ⟨1, _⟩ =>
    show win0_3.index t 1 * 512 ≤ (i 1).val ∧ (i 1).val < win0_3.index t 1 * 512 + 512
    rw [hi.2.1, ht]; omega
  | ⟨2, _⟩ =>
    show win0_3.index t 2 * 2048 ≤ (i 2).val ∧ (i 2).val < win0_3.index t 2 * 2048 + 2048
    rw [hi.2.2]; omega

/-- The result array after the run is the experts' output. -/
theorem final (c : Dev nD) : (dats m 0 c).arrAt 3 cfg0.N = result m c :=
  (dats m 0 c).arrAt_eq_of_cover 3 (result m c) (flushed_eq m c) covered

/-- Every weakly fair execution of the kernel's program ends with the result array at the experts' output of the
    arguments as launched, and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Acc

end
-- ==== Proof.lean ====
/-
  Two layers of eight experts: a fused kernel against two batched products.

  The kernel narrows the tokens and the two weight arrays to half precision and then, for each expert and each block
  of 512 tokens, runs through eight blocks of 1024 hidden units: the block of tokens times the first-layer weights of
  those units, the rectifier, the result narrowed again, times the second-layer weights of those units, added into a
  running block of partial outputs that is zeroed at the first of the eight steps and written to the result after the
  last.  The reference takes the batched product of the tokens with the first-layer weights, the maximum with zero,
  and the batched product with the second-layer weights.

  Over the extended reals a change of float format is the identity and a matrix product is the plain sum over the
  contracted axis, so the reference computes, for expert e, token c and feature n,
      ∑ h < 8192, max (∑ j < 2048, x (e, c, j) · w₁ (e, j, h)) 0 · w₂ (e, h, n),
  and the kernel computes the same sum cut into eight consecutive blocks of 1024 hidden units and added up from zero.
  The two agree by the associativity and commutativity of addition alone; no entry has to be finite, and the
  precondition is not used.

  The frames of the two kernel programs and the reference's run are the generated ones; the idealization rewrote
  nothing, so its claim is trivial.
-/
import proofs.«106295_j80882824118673_1_alg».proof.Defs
import proofs.«106295_j80882824118673_1_alg».proof.Proof.Gen.Kernel
import proofs.«106295_j80882824118673_1_alg».proof.Proof.Gen.Kernel.Skeleton
import proofs.«106295_j80882824118673_1_alg».proof.Proof.Gen.Kernel.Launch
import proofs.«106295_j80882824118673_1_alg».proof.Proof.Gen.Kernel.Points
import proofs.«106295_j80882824118673_1_alg».proof.Proof.Gen.Kernel.Frame
import proofs.«106295_j80882824118673_1_alg».proof.Proof.Gen.KernelIdeal
import proofs.«106295_j80882824118673_1_alg».proof.Proof.Gen.KernelIdeal.Skeleton
import proofs.«106295_j80882824118673_1_alg».proof.Proof.Gen.KernelIdeal.Launch
import proofs.«106295_j80882824118673_1_alg».proof.Proof.Gen.KernelIdeal.Points
import proofs.«106295_j80882824118673_1_alg».proof.Proof.Gen.KernelIdeal.Frame
import proofs.«106295_j80882824118673_1_alg».proof.Proof.Gen.KernelIdeal.Value
import proofs.«106295_j80882824118673_1_alg».proof.Proof.Gen.ReferenceIdeal
import proofs.«106295_j80882824118673_1_alg».proof.Proof.Gen.ReferenceIdeal.Run
import proofs.«106295_j80882824118673_1_alg».proof.Proof.Gen.ReferenceIdeal.Read
import proofs.«106295_j80882824118673_1_alg».proof.Proof.Gen.Pre_finite_inputs
import proofs.«106295_j80882824118673_1_alg».proof.Proof.RefIsOut
import proofs.«106295_j80882824118673_1_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel (hKernel := Cert.Kernel.Gen.facts)
    (hPre_finite_inputs := Cert.Pre_finite_inputs.Gen.facts) :=
  fun m ρ _ => Cert.Kernel.Gen.frame m ρ

/-- So does the kernel read over the extended reals. -/
theorem frame_kernel_ideal : Cert.frame_KernelIdeal (hKernelIdeal := Cert.KernelIdeal.Gen.facts)
    (hPre_finite_inputs := Cert.Pre_finite_inputs.Gen.facts) :=
  fun m ρ _ => Cert.KernelIdeal.Gen.frame m ρ

/-- The reference's run, its result dropped. -/
theorem frame_reference : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the experts' output of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.Moe.Ref.result_eq_out, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
